-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.HostChain.lean ====
/-
  The mathematics the two programs share on the host, as functions of arrays.

  A graph convolution layer is  out = D^{-1/2} (A + I) D^{-1/2} (x W) + b : the edge list `ei` (row 0 the sources,
  row 1 the destinations) is extended by the self-loops (i, i), the degree of a node is the number of extended
  edges arriving at it, `dis` is its reciprocal square root (0 where the degree is 0), every edge carries the weight
  dis[src] * dis[dst], and a layer gathers the rows h[src], scales each by its edge's weight and sums them into the
  destination rows. These functions name those stages once, so that both programs' results are stated with the
  same terms and the stages are never opened.
-/
import proofs.«412719_j30872224924177_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- The sources of the extended edge list: row 0 of `ei`, then the nodes 0 … 99999 (the self-loops). -/
def srcRow (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destinations of the extended edge list: row 1 of `ei`, then the nodes 0 … 99999. -/
def dstRow (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index list as a gather's start indices: a negative index counts from the end (100000 is added to it), and the
    list becomes a column. -/
def wrapCol (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- An index list as a scatter's indices: the list as a column, nothing wrapped. -/
def idxCol (v : IVec S1700000 32) : IVec S1700000x1 32 :=
  broadcastInDim S1700000x1 ![0] bcast_S1700000_S1700000x1_0 v

/-- The degree of each node: ones summed into the destinations of the extended edges. -/
def degree (d : IVec S1700000 32) : FVec F S100000 .f32 :=
  Host.scatterAdd scatter_S100000_S1700000x1_S1700000_n_0_0_1 (broadcastInDim S100000 ![] bcast_S_S100000 (constant S_ .f32 0x00000000#32)) (idxCol d) (broadcastInDim S1700000 ![] bcast_S_S1700000 (constant S_ .f32 0x3F800000#32))

/-- deg^{-1/2} where the degree is positive, 0 elsewhere. -/
def dis (d : IVec S1700000 32) : FVec F S100000 .f32 :=
  select (cmpf (F := F) .ogt (degree d) (broadcastInDim S100000 ![] bcast_S_S100000 (constant S_ .f32 0x00000000#32))) (Host.rsqrt (degree d)) (broadcastInDim S100000 ![] bcast_S_S100000 (id (constant S_ .f32 0x00000000#32)))

/-- The weight of each extended edge: dis[src] * dis[dst]. -/
def edgeWeight (s d : IVec S1700000 32) : FVec F S1700000 .f32 :=
  mulf (Host.gather gather_S100000_S1700000x1_S1700000_n_0_n_n_0_1_1 (dis d) (wrapCol s)) (Host.gather gather_S100000_S1700000x1_S1700000_n_0_n_n_0_1_1 (dis d) (wrapCol d))

/-- One aggregation over 128 features: the rows h[src], each scaled by its edge's weight, summed into the rows dst. -/
def aggregate128 (h : FVec F S100000x128 .f32) (s d : IVec S1700000 32) (w : FVec F S1700000 .f32) : FVec F S100000x128 .f32 :=
  Host.scatterAdd scatter_S100000x128_S1700000x1_S1700000x128_1_0_0_1 (broadcastInDim S100000x128 ![] bcast_S_S100000x128 (constant S_ .f32 0x00000000#32)) (idxCol d) (mulf (Host.gather gather_S100000x128_S1700000x1_S1700000x128_1_0_n_n_0_1_1128 h (wrapCol s)) (broadcastInDim S1700000x128 ![0, 1] bcast_S1700000x1_S1700000x128_0_1 (broadcastInDim S1700000x1 ![0] bcast_S1700000_S1700000x1_0 w)))

/-- The same over 64 features. -/
def aggregate64 (h : FVec F S100000x64 .f32) (s d : IVec S1700000 32) (w : FVec F S1700000 .f32) : FVec F S100000x64 .f32 :=
  Host.scatterAdd scatter_S100000x64_S1700000x1_S1700000x64_1_0_0_1 (broadcastInDim S100000x64 ![] bcast_S_S100000x64 (constant S_ .f32 0x00000000#32)) (idxCol d) (mulf (Host.gather gather_S100000x64_S1700000x1_S1700000x64_1_0_n_n_0_1_164 h (wrapCol s)) (broadcastInDim S1700000x64 ![0, 1] bcast_S1700000x1_S1700000x64_0_1 (broadcastInDim S1700000x1 ![0] bcast_S1700000_S1700000x1_0 w)))

/-- A bias row added to every row, then the maximum with 0 (the first layer's activation). -/
def biasRelu128 (a : FVec F S100000x128 .f32) (b : FVec F S1x128 .f32) : FVec F S100000x128 .f32 :=
  maximumf (addf a (broadcastInDim S100000x128 ![0, 1] bcast_S1x128_S100000x128_0_1 b)) (broadcastInDim S100000x128 ![] bcast_S_S100000x128 (constant S_ .f32 0x00000000#32))

/-- A bias row added to every row (the second layer has no activation). -/
def bias64 (a : FVec F S100000x64 .f32) (b : FVec F S1x64 .f32) : FVec F S100000x64 .f32 :=
  addf a (broadcastInDim S100000x64 ![0, 1] bcast_S1x64_S100000x64_0_1 b)

/-- The two layers, from the six arguments. -/
def forward (x : FVec F S100000x128 .f32) (ei : IVec S2x1600000 32) (w1 : FVec F S128x128 .f32) (b1 : FVec F S128 .f32)
    (w2 : FVec F S128x64 .f32) (b2 : FVec F S64 .f32) : FVec F S100000x64 .f32 :=
  bias64 (aggregate64 (Host.dotGeneral dot_S100000x128_S128x64_S100000x64_1_0_0_1_n_n none
      (biasRelu128 (aggregate128 (Host.dotGeneral dot_S100000x128_S128x128_S100000x128_1_0_0_1_n_n none x w1) (srcRow ei) (dstRow ei) (edgeWeight (srcRow ei) (dstRow ei)))
        (broadcastInDim S1x128 ![1] bcast_S128_S1x128_1 b1)) w2)
      (srcRow ei) (dstRow ei) (edgeWeight (srcRow ei) (dstRow ei)))
    (broadcastInDim S1x64 ![1] bcast_S64_S1x64_1 b2)

end Cert.Gcn

end
-- ==== Proof.KernelStages.lean ====
/-
  The kernel program's stretches of host operations, each read as one of the shared host functions of the
  buffer contents the stretch starts from (whatever those contents are): the three stretches before the first
  matrix product build the extended edge list and its weights from the edge-list argument; the stretch after each
  matrix product gathers, scales and sums its rows, and lays the layer's bias out as a row.
-/
import proofs.«412719_j30872224924177_1_alg».proof.Proof.Gen.KernelIdeal.Launch
import proofs.«412719_j30872224924177_1_alg».proof.Proof.HostChain
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F] (Wa : Valuation τ sig (Elt F))

/-! ## Before the first matrix product: the extended edge list and the edge weights -/

theorem entry_src :
    after hostOps0_2 (after hostOps0_1 (after hostOps0 Wa)) (Proc.devRef .tc main_v3) = Cert.Gcn.srcRow (Wa (Proc.devRef .tc main_arg1)) := by
  after_results
  rfl

theorem entry_dst :
    after hostOps0_2 (after hostOps0_1 (after hostOps0 Wa)) (Proc.devRef .tc main_v6) = Cert.Gcn.dstRow (Wa (Proc.devRef .tc main_arg1)) := by
  after_results
  rfl

set_option maxHeartbeats 4000000 in
theorem entry_weight :
    after hostOps0_2 (after hostOps0_1 (after hostOps0 Wa)) (Proc.devRef .tc main_v29)
      = Cert.Gcn.edgeWeight (F := F) (Cert.Gcn.srcRow (Wa (Proc.devRef .tc main_arg1))) (Cert.Gcn.dstRow (Wa (Proc.devRef .tc main_arg1))) := by
  after_results
  rfl

/-! ## After the first matrix product: the first aggregation, and the first bias as a row -/

set_option maxHeartbeats 4000000 in
theorem stage1_aggregate :
    after hostOps1 Wa (Proc.devRef .tc main_v43)
      = Cert.Gcn.aggregate128 (F := F) (Wa (Proc.devRef .tc main_v30)) (Wa (Proc.devRef .tc main_v3)) (Wa (Proc.devRef .tc main_v6)) (Wa (Proc.devRef .tc main_v29)) := by
  after_results_simp <;> rfl

theorem stage1_bias :
    after hostOps1 Wa (Proc.devRef .tc main_v44)
      = shapeCast (α := F .f32) Cert.ReferenceIdeal.S1x128 (Wa (Proc.devRef .tc main_arg3)) shapeCasts_S128_S1x128 := by
  after_results
  rfl

/-! ## After the second matrix product: the second aggregation, and the second bias as a row -/

set_option maxHeartbeats 4000000 in
theorem stage3_aggregate :
    after hostOps3 Wa (Proc.devRef .tc main_v59)
      = Cert.Gcn.aggregate64 (F := F) (Wa (Proc.devRef .tc main_v46)) (Wa (Proc.devRef .tc main_v3)) (Wa (Proc.devRef .tc main_v6)) (Wa (Proc.devRef .tc main_v29)) := by
  after_results_simp <;> rfl

theorem stage3_bias :
    after hostOps3 Wa (Proc.devRef .tc main_v60)
      = shapeCast (α := F .f32) Cert.ReferenceIdeal.S1x64 (Wa (Proc.devRef .tc main_arg5)) shapeCasts_S64_S1x64 := by
  after_results
  rfl

end Cert.KernelIdeal.Stages

end
-- ==== Proof.RegionMatmul.lean ====
import proofs.«412719_j30872224924177_1_alg».proof.Proof.Gen.KernelIdeal.Frame
import proofs.«412719_j30872224924177_1_alg».proof.Proof.Gen.ReferenceIdeal
import Idealize.ShloMosaic.PureOps.Ideal.Laws
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! # The two matrix products, as whole arrays

Each of the two product regions computes, block of 5000 rows by block of 5000 rows, the product of a 100000-row matrix
with a small matrix that is a single block. On the extended reals a change of float format is the identity and the
accumulator starts at zero, so an element of a block product is the plain sum of 128 products; the same sum, read in the
whole arrays, is the element of the whole product, because row `p` of block `t` is row `t * 5000 + p` of the array. The
twenty blocks fill the array, so after the twentieth point the output array is the whole product. -/

/-! ## Indices along the contraction

Both products contract the 128 columns of the first factor with the 128 rows of the second. At an output index `j`
and a contracted position `k` the first factor is read at row `j 0`, column `k`, the second at row `k`, column `j 1`. -/

/-- Row `j 0`, column `k`, of a matrix with 128 columns. -/
abbrev rowAt {n m : Nat} (j : (⟨2, ![n, m]⟩ : Shape).Idx) (k : Fin 128) : (⟨2, ![n, 128]⟩ : Shape).Idx := fun a => match a with
  | ⟨0, _⟩ => ⟨(j 0).val, (j 0).isLt⟩
  | ⟨1, _⟩ => ⟨k.val, k.isLt⟩
/-- Row `k`, column `j 1`, of a matrix with 128 rows. -/
abbrev colAt {n m : Nat} (j : (⟨2, ![n, m]⟩ : Shape).Idx) (k : Fin 128) : (⟨2, ![128, m]⟩ : Shape).Idx := fun a => match a with
  | ⟨0, _⟩ => ⟨k.val, k.isLt⟩
  | ⟨1, _⟩ => ⟨(j 1).val, (j 1).isLt⟩

theorem zero_offsets : (![0, 0] : Fin 2 → Nat) = fun _ => 0 := funext fun a => by
  match a with
  | ⟨0, _⟩ => rfl
  | ⟨1, _⟩ => rfl

/-! # Region 0: the first layer's product, 100000x128 by 128x128 -/

/-! ## The two contractions' operand indices, axis by axis -/

theorem lhs_blockdot0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blockdot0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blockdot0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blockdot0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs_arraydot0_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arraydot0_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arraydot0_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arraydot0_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-! ## Both products at an index -/

/-- The block product at an index: the accumulator is zero and a change of format is the identity on the extended reals, so
    the element is the plain sum over the 128 contracted positions. -/
theorem blockdot0_apply (x0 : Vec Ideal S5000x128 .f32) (x1 : Vec Ideal S128x128 .f32) (j : S5000x128.Idx) :
    k0_pay1 (F := Ideal) x0 x1 j = ∑ k : Fin 128, x0 (rowAt j k) * x1 (colAt j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_blockdot0_0 _ _
    | ⟨1, _⟩ => exact (lhs_blockdot0_1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_blockdot0_0 _ _).trans hk
    | ⟨1, _⟩ => exact rhs_blockdot0_1 _ _)
  rw [el, er]
  rfl

/-- The whole-array product at an index: the same plain sum over the 128 contracted positions. -/
theorem arraydot0_apply (a0 : Vec Ideal Cert.ReferenceIdeal.S100000x128 .f32) (a1 : Vec Ideal Cert.ReferenceIdeal.S128x128 .f32) (i : Cert.ReferenceIdeal.S100000x128.Idx) :
    Host.dotGeneral (F := Ideal) (φ₁ := .f32) (φ₂ := .f32) Cert.ReferenceIdeal.dot_S100000x128_S128x128_S100000x128_1_0_0_1_n_n none a0 a1 i
      = ∑ k : Fin 128, a0 (rowAt i k) * a1 (colAt i k) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = rowAt i k := funext fun a => Fin.ext (by
    match a with
    | ⟨0, _⟩ => exact lhs_arraydot0_0 _ _
    | ⟨1, _⟩ => exact (lhs_arraydot0_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = colAt i k := funext fun a => Fin.ext (by
    match a with
    | ⟨0, _⟩ => exact (rhs_arraydot0_0 _ _).trans hk
    | ⟨1, _⟩ => exact rhs_arraydot0_1 _ _)
  rw [el, er]

/-- Term by term: when row `j 0` of the first block is row `i 0` of the first array along the contraction, and column
    `j 1` of the second block is column `i 1` of the second array, the block product at `j` is the array product at `i`. -/
theorem blockdot0_eq_arraydot0 (x0 : Vec Ideal S5000x128 .f32) (x1 : Vec Ideal S128x128 .f32)
    (a0 : Vec Ideal Cert.ReferenceIdeal.S100000x128 .f32) (a1 : Vec Ideal Cert.ReferenceIdeal.S128x128 .f32)
    (j : S5000x128.Idx) (i : Cert.ReferenceIdeal.S100000x128.Idx)
    (h0 : ∀ k : Fin 128, x0 (rowAt j k) = a0 (rowAt i k)) (h1 : ∀ k : Fin 128, x1 (colAt j k) = a1 (colAt i k)) :
    k0_pay1 (F := Ideal) x0 x1 j
      = Host.dotGeneral (F := Ideal) (φ₁ := .f32) (φ₂ := .f32) Cert.ReferenceIdeal.dot_S100000x128_S128x128_S100000x128_1_0_0_1_n_n none a0 a1 i := by
  rw [blockdot0_apply, arraydot0_apply]
  exact Finset.sum_congr rfl fun k _ => by rw [h0 k, h1 k]

/-! ## From the blocks to the array -/

/-- The index maps over the grid: the first factor's and the product's row block is the point's number, every column block
    and both of the second factor's blocks are the first. -/
theorem blocks0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The whole product, as a function of its two factors. -/
abbrev product0 (a0 : Vec Ideal Cert.ReferenceIdeal.S100000x128 .f32) (a1 : Vec Ideal Cert.ReferenceIdeal.S128x128 .f32) :
    Vec Ideal Cert.ReferenceIdeal.S100000x128 .f32 :=
  Host.dotGeneral (F := Ideal) (φ₁ := .f32) (φ₂ := .f32) Cert.ReferenceIdeal.dot_S100000x128_S128x128_S100000x128_1_0_0_1_n_n none a0 a1

/-- What point `t` writes back is block `t` of the whole product of the two factor arrays: row `p` of the point's block
    of the first factor is row `t * 5000 + p` of the array, and the second factor is one block. -/
theorem flushed0_eq (c : Dev nD) (t : Fin cfg0.N) :
    (dat0 (F := Ideal) V c).flushed 2 t = ((cfg0.win 2).blk t).view.read (Elt Ideal) (product0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := blocks0 t
  funext j
  refine blockdot0_eq_arraydot0 (iblk0 V c 0 t) (iblk0 V c 1 t) (V c main_arg0) (V c main_arg2) j (((cfg0.win 2).blk t).view.emb j) ?_ ?_
  · intro k
    show V c main_arg0 (((cfg0.win 0).blk t).view.emb (rowAt j k)) = V c main_arg0 (rowAt (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · intro k
    show V c main_arg2 (((cfg0.win 1).blk t).view.emb (colAt j k)) = V c main_arg2 (colAt (((cfg0.win 2).blk t).view.emb j) k)
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e5]

/-- An index of the product array is in point `t`'s block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Twenty blocks of 5000 rows fill the 100000 rows: row `r` lies in the block of point `r / 5000`; the columns are one block. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by show _ < 20; omega
  obtain ⟨-, -, -, -, e4, e5⟩ := blocks0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_block0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; rw [e4']; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; rw [e5]; omega

/-- The product array after the region's twenty points: the whole product of the two factor arrays. -/
theorem region0_array (c : Dev nD) :
    (dat0 (F := Ideal) V c).arrAt 2 cfg0.N
      = Host.dotGeneral (F := Ideal) (φ₁ := .f32) (φ₂ := .f32) Cert.ReferenceIdeal.dot_S100000x128_S128x128_S100000x128_1_0_0_1_n_n none (V c main_arg0) (V c main_arg2) :=
  (dat0 (F := Ideal) V c).arrAt_eq_of_cover 2 (product0 (V c main_arg0) (V c main_arg2)) (fun t _ => flushed0_eq V c t) cover0

/-! # Region 2: the second layer's product, 100000x128 by 128x64 -/

/-! ## The two contractions' operand indices, axis by axis -/

theorem lhs_blockdot2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blockdot2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blockdot2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blockdot2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem lhs_arraydot2_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhs_arraydot2_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhs_arraydot2_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhs_arraydot2_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-! ## Both products at an index -/

/-- The block product at an index: the accumulator is zero and a change of format is the identity on the extended reals, so
    the element is the plain sum over the 128 contracted positions. -/
theorem blockdot2_apply (x0 : Vec Ideal S5000x128 .f32) (x1 : Vec Ideal S128x64 .f32) (j : S5000x64.Idx) :
    k2_pay1 (F := Ideal) x0 x1 j = ∑ k : Fin 128, x0 (rowAt j k) * x1 (colAt j k) := by
  unfold k2_pay1
  rw [shapeCast_self]
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowAt j k := funext fun a => Fin.ext (by
    match a with
    | ⟨0, _⟩ => exact lhs_blockdot2_0 _ _
    | ⟨1, _⟩ => exact (lhs_blockdot2_1 _ _).trans hk)
  have er : dot_S5000x128_S128x64_S5000x64_1_0_0_1_n_n.rhsIdx j ((ValueIdx.contrEquiv1 dot_S5000x128_S128x64_S5000x64_1_0_0_1_n_n 128 rfl rfl).symm k) = colAt j k := funext fun a => Fin.ext (by
    match a with
    | ⟨0, _⟩ => exact (rhs_blockdot2_0 _ _).trans hk
    | ⟨1, _⟩ => exact rhs_blockdot2_1 _ _)
  rw [el, er]
  rfl

/-- The whole-array product at an index: the same plain sum over the 128 contracted positions. -/
theorem arraydot2_apply (a0 : Vec Ideal Cert.ReferenceIdeal.S100000x128 .f32) (a1 : Vec Ideal Cert.ReferenceIdeal.S128x64 .f32) (i : Cert.ReferenceIdeal.S100000x64.Idx) :
    Host.dotGeneral (F := Ideal) (φ₁ := .f32) (φ₂ := .f32) Cert.ReferenceIdeal.dot_S100000x128_S128x64_S100000x64_1_0_0_1_n_n none a0 a1 i
      = ∑ k : Fin 128, a0 (rowAt i k) * a1 (colAt i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = rowAt i k := funext fun a => Fin.ext (by
    match a with
    | ⟨0, _⟩ => exact lhs_arraydot2_0 _ _
    | ⟨1, _⟩ => exact (lhs_arraydot2_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = colAt i k := funext fun a => Fin.ext (by
    match a with
    | ⟨0, _⟩ => exact (rhs_arraydot2_0 _ _).trans hk
    | ⟨1, _⟩ => exact rhs_arraydot2_1 _ _)
  rw [el, er]

/-- Term by term: when row `j 0` of the first block is row `i 0` of the first array along the contraction, and column
    `j 1` of the second block is column `i 1` of the second array, the block product at `j` is the array product at `i`. -/
theorem blockdot2_eq_arraydot2 (x0 : Vec Ideal S5000x128 .f32) (x1 : Vec Ideal S128x64 .f32)
    (a0 : Vec Ideal Cert.ReferenceIdeal.S100000x128 .f32) (a1 : Vec Ideal Cert.ReferenceIdeal.S128x64 .f32)
    (j : S5000x64.Idx) (i : Cert.ReferenceIdeal.S100000x64.Idx)
    (h0 : ∀ k : Fin 128, x0 (rowAt j k) = a0 (rowAt i k)) (h1 : ∀ k : Fin 128, x1 (colAt j k) = a1 (colAt i k)) :
    k2_pay1 (F := Ideal) x0 x1 j
      = Host.dotGeneral (F := Ideal) (φ₁ := .f32) (φ₂ := .f32) Cert.ReferenceIdeal.dot_S100000x128_S128x64_S100000x64_1_0_0_1_n_n none a0 a1 i := by
  rw [blockdot2_apply, arraydot2_apply]
  exact Finset.sum_congr rfl fun k _ => by rw [h0 k, h1 k]

/-! ## From the blocks to the array -/

/-- The index maps over the grid: the first factor's and the product's row block is the point's number, every column block
    and both of the second factor's blocks are the first. -/
theorem blocks2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The whole product, as a function of its two factors. -/
abbrev product2 (a0 : Vec Ideal Cert.ReferenceIdeal.S100000x128 .f32) (a1 : Vec Ideal Cert.ReferenceIdeal.S128x64 .f32) :
    Vec Ideal Cert.ReferenceIdeal.S100000x64 .f32 :=
  Host.dotGeneral (F := Ideal) (φ₁ := .f32) (φ₂ := .f32) Cert.ReferenceIdeal.dot_S100000x128_S128x64_S100000x64_1_0_0_1_n_n none a0 a1

/-- What point `t` writes back is block `t` of the whole product of the two factor arrays: row `p` of the point's block
    of the first factor is row `t * 5000 + p` of the array, and the second factor is one block. -/
theorem flushed2_eq (c : Dev nD) (t : Fin cfg2.N) :
    (dat2 (F := Ideal) V c).flushed 2 t = ((cfg2.win 2).blk t).view.read (Elt Ideal) (product2 (V c main_v45) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x128) zero_offsets, View.ld_unit_zero (S := S128x64) zero_offsets]
  obtain ⟨e0, e1, e2, e3, e4, e5⟩ := blocks2 t
  funext j
  refine blockdot2_eq_arraydot2 (iblk2 V c 0 t) (iblk2 V c 1 t) (V c main_v45) (V c main_arg4) j (((cfg2.win 2).blk t).view.emb j) ?_ ?_
  · intro k
    show V c main_v45 (((cfg2.win 0).blk t).view.emb (rowAt j k)) = V c main_v45 (rowAt (((cfg2.win 2).blk t).view.emb j) k)
    refine congrArg (V c main_v45) (funext fun a => Fin.ext ?_)
    match a with
    | ⟨0, _⟩ => show win2_0.index t (0 : Fin 2) * 5000 + 1 * (j 0).val = win2_2.index t (0 : Fin 2) * 5000 + 1 * (j 0).val; rw [e0, e4]
    | ⟨1, _⟩ => show win2_0.index t (1 : Fin 2) * 128 + 1 * k.val = k.val; rw [e1]; omega
  · intro k
    show V c main_arg4 (((cfg2.win 1).blk t).view.emb (colAt j k)) = V c main_arg4 (colAt (((cfg2.win 2).blk t).view.emb j) k)
    refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 64 + 1 * (j 1).val = win2_2.index t (1 : Fin 2) * 64 + 1 * (j 1).val; rw [e3, e5]

/-- An index of the product array is in point `t`'s block iff each coordinate is in the block's range on its axis. -/
theorem mem_block2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Twenty blocks of 5000 rows fill the 100000 rows: row `r` lies in the block of point `r / 5000`; the columns are one block. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 5000 < cfg2.N := by show _ < 20; omega
  obtain ⟨-, -, -, -, e4, e5⟩ := blocks2 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_block2]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; rw [e4']; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; rw [e5]; omega

/-- The product array after the region's twenty points: the whole product of the two factor arrays. -/
theorem region2_array (c : Dev nD) :
    (dat2 (F := Ideal) V c).arrAt 2 cfg2.N
      = Host.dotGeneral (F := Ideal) (φ₁ := .f32) (φ₂ := .f32) Cert.ReferenceIdeal.dot_S100000x128_S128x64_S100000x64_1_0_0_1_n_n none (V c main_v45) (V c main_arg4) :=
  (dat2 (F := Ideal) V c).arrAt_eq_of_cover 2 (product2 (V c main_v45) (V c main_arg4)) (fun t _ => flushed2_eq V c t) cover2

end Cert.KernelIdeal.RegionValue

end
-- ==== Proof.RegionBias.lean ====
import proofs.«412719_j30872224924177_1_alg».proof.Proof.Gen.KernelIdeal.Frame
import proofs.«412719_j30872224924177_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionValue

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

/-! # The two bias regions as whole-array functions

Each bias region walks the 100000 rows of its first input in twenty blocks of 5000 rows, all columns at once, and
adds to every row the one row of its second input; the first region then takes the maximum with zero. Every
block is written back where it was read from, and the twenty blocks tile the rows, so the region's output array is
the same pointwise function of the two whole input arrays: the element plus the bias of its column (and its
maximum with zero). Per region: the body's value at a block index, the whole-array function at an array index,
the two set side by side at the index a block puts its element at, the block index maps over the grid, what one
point writes back, membership in a block by coordinates, the cover of the rows, and the array after the last point. -/

/-- The offsets of an access to a whole block are zero on both axes. -/
theorem bias_zero_offsets : (![0, 0] : Fin 2 → Nat) = fun _ => 0 :=
  funext fun a => match a with | ⟨0, _⟩ => rfl | ⟨1, _⟩ => rfl

/-! ## The second bias region: the row vector added to every row, 64 columns -/

/-- The body's payload at a block index: the element plus the bias of its column. -/
theorem bias_payload3 (x0 : Vec Ideal S5000x64 .f32) (x1 : Vec Ideal S1x64 .f32) (p : Fin 5000) (q : Fin 64) :
    k3_pay1 (F := Ideal) x0 x1 (ix2 p q) = x0 (ix2 p q) + x1 (ix2 (0 : Fin 1) q) := by
  unfold k3_pay1
  rw [shapeCast_self, shapeCast_self]
  rw [addf_apply, broadcastTo_1b_ab_apply]

/-- The whole-array sum at an index whose column is `q`: the element plus the bias of column `q`. -/
theorem bias_array3 (A : Vec Ideal S100000x64 .f32) (B : Vec Ideal S1x64 .f32) (i : S100000x64.Idx) (q : Fin 64)
    (hq : (i 1).val = q.val) :
    addf (F := Ideal) (s := S100000x64) (φ := .f32) A
        (broadcastInDim (α := Ideal .f32) S100000x64 ![0, 1] Cert.ReferenceIdeal.Gen.bcast_S1x64_S100000x64_0_1 B) i
      = A i + B (ix2 (0 : Fin 1) q) := by
  rw [addf_apply]
  congr 1
  refine broadcastInDim_apply _ _ B i (ix2 (0 : Fin 1) q) fun a => ?_
  match a with
  | ⟨0, _⟩ => rfl
  | ⟨1, _⟩ => exact hq.symm

/-- The body's payload at a block index against the whole-array sum at the array index the block puts it at: equal
    when the first input's block holds the array's element there, the bias block is the bias row, and the column is kept. -/
theorem bias_point3 (A : Vec Ideal S100000x64 .f32) (B : Vec Ideal S1x64 .f32)
    (x0 : Vec Ideal S5000x64 .f32) (x1 : Vec Ideal S1x64 .f32) (j : S5000x64.Idx) (i : S100000x64.Idx)
    (h0 : x0 j = A i) (h1 : x1 = B) (hcol : (i 1).val = (j 1).val) :
    k3_pay1 (F := Ideal) x0 x1 j
      = addf (F := Ideal) (s := S100000x64) (φ := .f32) A
          (broadcastInDim (α := Ideal .f32) S100000x64 ![0, 1] Cert.ReferenceIdeal.Gen.bcast_S1x64_S100000x64_0_1 B) i := by
  obtain ⟨p, q, rfl⟩ : ∃ (p : Fin 5000) (q : Fin 64), j = ix2 p q := ⟨j 0, j 1, eq_ix2 j⟩
  rw [bias_payload3, bias_array3 A B i q hcol, h0, h1]

/-- The windows' block index maps over the grid: the row block of the first input and of the output is the point, every
    column block is the one block, and the bias window never moves. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array sum of the region's two input arrays. -/
theorem flushed3_eq (c : Dev nD) (t : Fin cfg3.N) :
    (dat3 (F := Ideal) V c).flushed 2 t = ((cfg3.win 2).blk t).view.read (Elt Ideal)
      (addf (F := Ideal) (s := S100000x64) (φ := .f32) (V c main_v59)
        (broadcastInDim (α := Ideal .f32) S100000x64 ![0, 1] Cert.ReferenceIdeal.Gen.bcast_S1x64_S100000x64_0_1 (V c main_v60))) := by
  show (cfg3.win 2).cut (grid3.coords t) ((dat3 V c).after 2 t) = _
  rw [after3_2]
  unfold out3_2
  rw [View.canon_unit_zero bias_zero_offsets]
  simp only [View.ld_unit_zero (S := S5000x64) bias_zero_offsets, View.ld_unit_zero (S := S1x64) bias_zero_offsets]
  obtain ⟨e00, e01, e10, e11, e20, e21⟩ := index_maps3 t
  funext j
  refine bias_point3 (V c main_v59) (V c main_v60) (iblk3 V c 0 t) (iblk3 V c 1 t) j (((cfg3.win 2).blk t).view.emb j) ?_ ?_ ?_
  · show V c main_v59 (((cfg3.win 0).blk t).view.emb j) = V c main_v59 (((cfg3.win 2).blk t).view.emb j)
    refine congrArg (V c main_v59) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  · funext y
    show V c main_v60 (((cfg3.win 1).blk t).view.emb y) = V c main_v60 y
    refine congrArg (V c main_v60) (funext fun a => Fin.ext ?_)
    match a with
    | ⟨0, _⟩ => show win3_1.index t (0 : Fin 2) * 1 + 1 * (y 0).val = (y 0).val; omega
    | ⟨1, _⟩ => show win3_1.index t (1 : Fin 2) * 64 + 1 * (y 1).val = (y 1).val; omega
  · show win3_2.index t (1 : Fin 2) * 64 + 1 * (j 1).val = (j 1).val
    omega

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Twenty blocks of 5000 rows tile the 100000 rows: row `r` is in the block of point `r / 5000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := rfl
  obtain ⟨t, ht⟩ : ∃ t : Fin cfg3.N, t.val = (i 0).val / 5000 :=
    ⟨⟨(i 0).val / 5000, lt_of_lt_of_eq (by omega) hN.symm⟩, rfl⟩
  refine ⟨t, flush3_2 t, ?_⟩
  rw [mem_blk3]
  obtain ⟨-, -, -, -, e20, e21⟩ := index_maps3 t
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-! ## The first bias region: the row vector added to every row, then the maximum with zero, 128 columns -/

/-- The body's payload at a block index: the element plus the bias of its column, or zero if that is larger. -/
theorem bias_payload1 (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  rw [shapeCast_self, shapeCast_self]
  rw [maximumf_apply, addf_apply, broadcastTo_1b_ab_apply]
  rfl

/-- The whole-array function at an index whose column is `q`: the element plus the bias of column `q`, or zero if
    that is larger. The splat of the zero word reads that word everywhere. -/
theorem bias_array1 (A : Vec Ideal S100000x128 .f32) (B : Vec Ideal S1x128 .f32) (i : S100000x128.Idx) (q : Fin 128)
    (hq : (i 1).val = q.val) :
    maximumf (F := Ideal) (s := S100000x128) (φ := .f32)
        (addf (F := Ideal) (s := S100000x128) (φ := .f32) A
          (broadcastInDim (α := Ideal .f32) S100000x128 ![0, 1] Cert.ReferenceIdeal.Gen.bcast_S1x128_S100000x128_0_1 B))
        (broadcastInDim S100000x128 ![] Cert.ReferenceIdeal.Gen.bcast_S_S100000x128 (constant (F := Ideal) S_ .f32 0x00000000#32)) i
      = max (A i + B (ix2 (0 : Fin 1) q)) (Ideal.ofBits .f32 0x00000000#32) := by
  rw [maximumf_apply, addf_apply]
  have hb : broadcastInDim (α := Ideal .f32) S100000x128 ![0, 1] Cert.ReferenceIdeal.Gen.bcast_S1x128_S100000x128_0_1 B i
      = B (ix2 (0 : Fin 1) q) := by
    refine broadcastInDim_apply _ _ B i (ix2 (0 : Fin 1) q) fun a => ?_
    match a with
    | ⟨0, _⟩ => rfl
    | ⟨1, _⟩ => exact hq.symm
  rw [hb]
  rfl

/-- The body's payload at a block index against the whole-array function at the array index the block puts it at:
    equal when the first input's block holds the array's element there, the bias block is the bias row, and the
    column is kept. -/
theorem bias_point1 (A : Vec Ideal S100000x128 .f32) (B : Vec Ideal S1x128 .f32)
    (x0 : Vec Ideal S5000x128 .f32) (x1 : Vec Ideal S1x128 .f32) (j : S5000x128.Idx) (i : S100000x128.Idx)
    (h0 : x0 j = A i) (h1 : x1 = B) (hcol : (i 1).val = (j 1).val) :
    k1_pay1 (F := Ideal) x0 x1 j
      = maximumf (F := Ideal) (s := S100000x128) (φ := .f32)
          (addf (F := Ideal) (s := S100000x128) (φ := .f32) A
            (broadcastInDim (α := Ideal .f32) S100000x128 ![0, 1] Cert.ReferenceIdeal.Gen.bcast_S1x128_S100000x128_0_1 B))
          (broadcastInDim S100000x128 ![] Cert.ReferenceIdeal.Gen.bcast_S_S100000x128 (constant (F := Ideal) S_ .f32 0x00000000#32)) i := by
  obtain ⟨p, q, rfl⟩ : ∃ (p : Fin 5000) (q : Fin 128), j = ix2 p q := ⟨j 0, j 1, eq_ix2 j⟩
  rw [bias_payload1, bias_array1 A B i q hcol, h0, h1]

/-- The windows' block index maps over the grid: the row block of the first input and of the output is the point, every
    column block is the one block, and the bias window never moves. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the region's two input arrays. -/
theorem flushed1_eq (c : Dev nD) (t : Fin cfg1.N) :
    (dat1 (F := Ideal) V c).flushed 2 t = ((cfg1.win 2).blk t).view.read (Elt Ideal)
      (maximumf (F := Ideal) (s := S100000x128) (φ := .f32)
        (addf (F := Ideal) (s := S100000x128) (φ := .f32) (V c main_v43)
          (broadcastInDim (α := Ideal .f32) S100000x128 ![0, 1] Cert.ReferenceIdeal.Gen.bcast_S1x128_S100000x128_0_1 (V c main_v44)))
        (broadcastInDim S100000x128 ![] Cert.ReferenceIdeal.Gen.bcast_S_S100000x128 (constant (F := Ideal) S_ .f32 0x00000000#32))) := by
  show (cfg1.win 2).cut (grid1.coords t) ((dat1 V c).after 2 t) = _
  rw [after1_2]
  unfold out1_2
  rw [View.canon_unit_zero bias_zero_offsets]
  simp only [View.ld_unit_zero (S := S5000x128) bias_zero_offsets, View.ld_unit_zero (S := S1x128) bias_zero_offsets]
  obtain ⟨e00, e01, e10, e11, e20, e21⟩ := index_maps1 t
  funext j
  refine bias_point1 (V c main_v43) (V c main_v44) (iblk1 V c 0 t) (iblk1 V c 1 t) j (((cfg1.win 2).blk t).view.emb j) ?_ ?_ ?_
  · show V c main_v43 (((cfg1.win 0).blk t).view.emb j) = V c main_v43 (((cfg1.win 2).blk t).view.emb j)
    refine congrArg (V c main_v43) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · funext y
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show win1_2.index t (1 : Fin 2) * 128 + 1 * (j 1).val = (j 1).val
    omega

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Twenty blocks of 5000 rows tile the 100000 rows: row `r` is in the block of point `r / 5000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := rfl
  obtain ⟨t, ht⟩ : ∃ t : Fin cfg1.N, t.val = (i 0).val / 5000 :=
    ⟨⟨(i 0).val / 5000, lt_of_lt_of_eq (by omega) hN.symm⟩, rfl⟩
  refine ⟨t, flush1_2 t, ?_⟩
  rw [mem_blk1]
  obtain ⟨-, -, -, -, e20, e21⟩ := index_maps1 t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After its twenty points the first bias region's output array is the maximum with zero of its first input plus
    its second input's row broadcast down the rows. -/
theorem region1_array (c : Dev nD) :
    (dat1 (F := Ideal) V c).arrAt 2 cfg1.N
      = maximumf (F := Ideal) (s := Cert.ReferenceIdeal.S100000x128) (φ := .f32)
          (addf (F := Ideal) (s := Cert.ReferenceIdeal.S100000x128) (φ := .f32) (V c main_v43)
            (broadcastInDim (α := Ideal .f32) Cert.ReferenceIdeal.S100000x128 ![0, 1] Cert.ReferenceIdeal.Gen.bcast_S1x128_S100000x128_0_1 (V c main_v44)))
          (broadcastInDim Cert.ReferenceIdeal.S100000x128 ![] Cert.ReferenceIdeal.Gen.bcast_S_S100000x128 (constant Cert.ReferenceIdeal.S_ .f32 0x00000000#32)) := by
  exact (dat1 (F := Ideal) V c).arrAt_eq_of_cover 2 _ (fun t _ => flushed1_eq V c t) cover1

/-- After its twenty points the second bias region's output array is its first input plus its second input's row
    broadcast down the rows. -/
theorem region3_array (c : Dev nD) :
    (dat3 (F := Ideal) V c).arrAt 2 cfg3.N
      = addf (F := Ideal) (s := Cert.ReferenceIdeal.S100000x64) (φ := .f32) (V c main_v59)
          (broadcastInDim (α := Ideal .f32) Cert.ReferenceIdeal.S100000x64 ![0, 1] Cert.ReferenceIdeal.Gen.bcast_S1x64_S100000x64_0_1 (V c main_v60)) := by
  exact (dat3 (F := Ideal) V c).arrAt_eq_of_cover 2 _ (fun t _ => flushed3_eq V c t) cover3

end Cert.KernelIdeal.RegionValue

end
-- ==== Proof.KernelFold.lean ====
/-
  The kernel program's result as the shared two-layer function of its arguments, at the exact extended reals.

  The program's buffer contents at its segment boundaries are a fold from the launch memory: a stretch of host
  operations applies them, a kernel region leaves its output array at the whole-array function of its inputs and every
  other buffer as it was. Reading the result buffer back through that fold: the last region adds the second bias
  to the second aggregation; that aggregation reads the second matrix product; its left factor is the first
  layer's activation, which the second region computes from the first aggregation and the first bias; the first
  aggregation reads the first matrix product of the two arguments. The extended edge list and the edge weights
  are computed once, before the first region, from the edge-list argument, and no later segment writes them.
-/
import proofs.«412719_j30872224924177_1_alg».proof.Proof.Gen.KernelIdeal.Frame
import proofs.«412719_j30872224924177_1_alg».proof.Proof.HostChain
import proofs.«412719_j30872224924177_1_alg».proof.Proof.KernelStages
import proofs.«412719_j30872224924177_1_alg».proof.Proof.RegionMatmul
import proofs.«412719_j30872224924177_1_alg».proof.Proof.RegionBias
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg) (c : Dev nD)

/-- A buffer a stretch of host operations does not write keeps its contents. -/
local macro "keeps" : tactic => `(tactic| (after_results <;> rfl))

/-! ## At the first region's entry -/

theorem W3_src : W3 m ρ c (Proc.devRef .tc main_v3) = srcRow (m ((c : Thread nD τ).loc main_arg1)) :=
  Stages.entry_src (W0 m ρ c)
theorem W3_dst : W3 m ρ c (Proc.devRef .tc main_v6) = dstRow (m ((c : Thread nD τ).loc main_arg1)) :=
  Stages.entry_dst (W0 m ρ c)
theorem W3_weight : W3 m ρ c (Proc.devRef .tc main_v29)
    = edgeWeight (F := Ideal) (srcRow (m ((c : Thread nD τ).loc main_arg1))) (dstRow (m ((c : Thread nD τ).loc main_arg1))) :=
  Stages.entry_weight (W0 m ρ c)

theorem W3_arg0 : W3 m ρ c (Proc.devRef .tc main_arg0) = m ((c : Thread nD τ).loc main_arg0) := by
  show after hostOps0_2 (after hostOps0_1 (after hostOps0 (W0 m ρ c))) (Proc.devRef .tc main_arg0) = W0 m ρ c (Proc.devRef .tc main_arg0)
  keeps
theorem W3_arg2 : W3 m ρ c (Proc.devRef .tc main_arg2) = m ((c : Thread nD τ).loc main_arg2) := by
  show after hostOps0_2 (after hostOps0_1 (after hostOps0 (W0 m ρ c))) (Proc.devRef .tc main_arg2) = W0 m ρ c (Proc.devRef .tc main_arg2)
  keeps
theorem W3_arg3 : W3 m ρ c (Proc.devRef .tc main_arg3) = m ((c : Thread nD τ).loc main_arg3) := by
  show after hostOps0_2 (after hostOps0_1 (after hostOps0 (W0 m ρ c))) (Proc.devRef .tc main_arg3) = W0 m ρ c (Proc.devRef .tc main_arg3)
  keeps
theorem W3_arg4 : W3 m ρ c (Proc.devRef .tc main_arg4) = m ((c : Thread nD τ).loc main_arg4) := by
  show after hostOps0_2 (after hostOps0_1 (after hostOps0 (W0 m ρ c))) (Proc.devRef .tc main_arg4) = W0 m ρ c (Proc.devRef .tc main_arg4)
  keeps
theorem W3_arg5 : W3 m ρ c (Proc.devRef .tc main_arg5) = m ((c : Thread nD τ).loc main_arg5) := by
  show after hostOps0_2 (after hostOps0_1 (after hostOps0 (W0 m ρ c))) (Proc.devRef .tc main_arg5) = W0 m ρ c (Proc.devRef .tc main_arg5)
  keeps

/-! ## After the first region: the first matrix product -/

theorem W4_product : W4 m ρ c (Proc.devRef .tc main_v30)
    = Host.dotGeneral (F := Ideal) (φ₁ := .f32) (φ₂ := .f32) Cert.ReferenceIdeal.dot_S100000x128_S128x128_S100000x128_1_0_0_1_n_n none
        (m ((c : Thread nD τ).loc main_arg0)) (m ((c : Thread nD τ).loc main_arg2)) := by
  refine (W4_arr m ρ c 2).trans ((RegionValue.region0_array (V3 m ρ) c).trans ?_)
  show Host.dotGeneral (F := Ideal) (φ₁ := .f32) (φ₂ := .f32) Cert.ReferenceIdeal.dot_S100000x128_S128x128_S100000x128_1_0_0_1_n_n none
        (W3 m ρ c (Proc.devRef .tc main_arg0)) (W3 m ρ c (Proc.devRef .tc main_arg2)) = _
  rw [W3_arg0, W3_arg2]

/-! ## After the stretch that follows it: the first aggregation and the first bias row -/

theorem W5_src : W5 m ρ c (Proc.devRef .tc main_v3) = srcRow (m ((c : Thread nD τ).loc main_arg1)) := by
  refine Eq.trans ?_ ((W4_of_ne m ρ c main_v3 (by decide)).trans (W3_src m ρ c))
  show after hostOps1 (W4 m ρ c) (Proc.devRef .tc main_v3) = W4 m ρ c (Proc.devRef .tc main_v3)
  keeps
theorem W5_dst : W5 m ρ c (Proc.devRef .tc main_v6) = dstRow (m ((c : Thread nD τ).loc main_arg1)) := by
  refine Eq.trans ?_ ((W4_of_ne m ρ c main_v6 (by decide)).trans (W3_dst m ρ c))
  show after hostOps1 (W4 m ρ c) (Proc.devRef .tc main_v6) = W4 m ρ c (Proc.devRef .tc main_v6)
  keeps
theorem W5_weight : W5 m ρ c (Proc.devRef .tc main_v29)
    = edgeWeight (F := Ideal) (srcRow (m ((c : Thread nD τ).loc main_arg1))) (dstRow (m ((c : Thread nD τ).loc main_arg1))) := by
  refine Eq.trans ?_ ((W4_of_ne m ρ c main_v29 (by decide)).trans (W3_weight m ρ c))
  show after hostOps1 (W4 m ρ c) (Proc.devRef .tc main_v29) = W4 m ρ c (Proc.devRef .tc main_v29)
  keeps
theorem W5_arg4 : W5 m ρ c (Proc.devRef .tc main_arg4) = m ((c : Thread nD τ).loc main_arg4) := by
  refine Eq.trans ?_ ((W4_of_ne m ρ c main_arg4 (by decide)).trans (W3_arg4 m ρ c))
  show after hostOps1 (W4 m ρ c) (Proc.devRef .tc main_arg4) = W4 m ρ c (Proc.devRef .tc main_arg4)
  keeps
theorem W5_arg5 : W5 m ρ c (Proc.devRef .tc main_arg5) = m ((c : Thread nD τ).loc main_arg5) := by
  refine Eq.trans ?_ ((W4_of_ne m ρ c main_arg5 (by decide)).trans (W3_arg5 m ρ c))
  show after hostOps1 (W4 m ρ c) (Proc.devRef .tc main_arg5) = W4 m ρ c (Proc.devRef .tc main_arg5)
  keeps

theorem W5_aggregate : W5 m ρ c (Proc.devRef .tc main_v43)
    = aggregate128 (F := Ideal)
        (Host.dotGeneral (F := Ideal) (φ₁ := .f32) (φ₂ := .f32) Cert.ReferenceIdeal.dot_S100000x128_S128x128_S100000x128_1_0_0_1_n_n none
          (m ((c : Thread nD τ).loc main_arg0)) (m ((c : Thread nD τ).loc main_arg2)))
        (srcRow (m ((c : Thread nD τ).loc main_arg1))) (dstRow (m ((c : Thread nD τ).loc main_arg1)))
        (edgeWeight (F := Ideal) (srcRow (m ((c : Thread nD τ).loc main_arg1))) (dstRow (m ((c : Thread nD τ).loc main_arg1)))) := by
  refine (Stages.stage1_aggregate (W4 m ρ c)).trans ?_
  rw [W4_product, W4_of_ne m ρ c main_v3 (by decide), W4_of_ne m ρ c main_v6 (by decide), W4_of_ne m ρ c main_v29 (by decide),
    W3_src, W3_dst, W3_weight]

theorem W5_bias : W5 m ρ c (Proc.devRef .tc main_v44)
    = shapeCast (α := Ideal .f32) Cert.ReferenceIdeal.S1x128 (m ((c : Thread nD τ).loc main_arg3)) shapeCasts_S128_S1x128 := by
  refine (Stages.stage1_bias (W4 m ρ c)).trans ?_
  rw [W4_of_ne m ρ c main_arg3 (by decide), W3_arg3]

/-! ## After the second region: the first layer's activation -/

/-- A vector laid out as a row is the vector broadcast along a new leading axis of extent one. -/
theorem row_eq_broadcast128 (b : FVec Ideal Cert.ReferenceIdeal.S128 .f32) :
    shapeCast (α := Ideal .f32) Cert.ReferenceIdeal.S1x128 b shapeCasts_S128_S1x128
      = broadcastInDim Cert.ReferenceIdeal.S1x128 ![1] Cert.ReferenceIdeal.Gen.bcast_S128_S1x128_1 b := by
  funext j
  obtain ⟨u, i, rfl⟩ : ∃ (u : Fin 1) (i : Fin 128), j = ValueIdx.ix2 u i := ⟨j 0, j 1, ValueIdx.eq_ix2 j⟩
  rw [ValueIdx.shapeCast_a_1a_apply]
  exact (broadcastInDim_apply _ _ b _ (ValueIdx.ix1 i) (fun a => by
    match a with
    | ⟨0, _⟩ => rfl)).symm

theorem row_eq_broadcast64 (b : FVec Ideal Cert.ReferenceIdeal.S64 .f32) :
    shapeCast (α := Ideal .f32) Cert.ReferenceIdeal.S1x64 b shapeCasts_S64_S1x64
      = broadcastInDim Cert.ReferenceIdeal.S1x64 ![1] Cert.ReferenceIdeal.Gen.bcast_S64_S1x64_1 b := by
  funext j
  obtain ⟨u, i, rfl⟩ : ∃ (u : Fin 1) (i : Fin 64), j = ValueIdx.ix2 u i := ⟨j 0, j 1, ValueIdx.eq_ix2 j⟩
  rw [ValueIdx.shapeCast_a_1a_apply]
  exact (broadcastInDim_apply _ _ b _ (ValueIdx.ix1 i) (fun a => by
    match a with
    | ⟨0, _⟩ => rfl)).symm

/-- The first layer: the aggregation of x·W1 plus the bias b1 on every row, its negative entries replaced by 0. -/
def layer1 : FVec Ideal Cert.ReferenceIdeal.S100000x128 .f32 :=
  biasRelu128 (F := Ideal)
    (aggregate128 (F := Ideal)
      (Host.dotGeneral (F := Ideal) (φ₁ := .f32) (φ₂ := .f32) Cert.ReferenceIdeal.dot_S100000x128_S128x128_S100000x128_1_0_0_1_n_n none
        (m ((c : Thread nD τ).loc main_arg0)) (m ((c : Thread nD τ).loc main_arg2)))
      (srcRow (m ((c : Thread nD τ).loc main_arg1))) (dstRow (m ((c : Thread nD τ).loc main_arg1)))
      (edgeWeight (F := Ideal) (srcRow (m ((c : Thread nD τ).loc main_arg1))) (dstRow (m ((c : Thread nD τ).loc main_arg1)))))
    (broadcastInDim Cert.ReferenceIdeal.S1x128 ![1] Cert.ReferenceIdeal.Gen.bcast_S128_S1x128_1 (m ((c : Thread nD τ).loc main_arg3)))

theorem W6_layer1 : W6 m ρ c (Proc.devRef .tc main_v45) = layer1 m c := by
  refine (W6_arr m ρ c 2).trans ((RegionValue.region1_array (V5 m ρ) c).trans ?_)
  show biasRelu128 (F := Ideal) (W5 m ρ c (Proc.devRef .tc main_v43)) (W5 m ρ c (Proc.devRef .tc main_v44)) = _
  rw [W5_aggregate, W5_bias, row_eq_broadcast128]
  rfl

/-! ## After the third region: the second matrix product -/

theorem W7_product : W7 m ρ c (Proc.devRef .tc main_v46)
    = Host.dotGeneral (F := Ideal) (φ₁ := .f32) (φ₂ := .f32) Cert.ReferenceIdeal.dot_S100000x128_S128x64_S100000x64_1_0_0_1_n_n none
        (layer1 m c) (m ((c : Thread nD τ).loc main_arg4)) := by
  refine (W7_arr m ρ c 2).trans ((RegionValue.region2_array (V6 m ρ) c).trans ?_)
  show Host.dotGeneral (F := Ideal) (φ₁ := .f32) (φ₂ := .f32) Cert.ReferenceIdeal.dot_S100000x128_S128x64_S100000x64_1_0_0_1_n_n none
        (W6 m ρ c (Proc.devRef .tc main_v45)) (W6 m ρ c (Proc.devRef .tc main_arg4)) = _
  rw [W6_layer1, W6_of_ne m ρ c main_arg4 (by decide), W5_arg4]

theorem W7_src : W7 m ρ c (Proc.devRef .tc main_v3) = srcRow (m ((c : Thread nD τ).loc main_arg1)) :=
  (W7_of_ne m ρ c main_v3 (by decide)).trans ((W6_of_ne m ρ c main_v3 (by decide)).trans (W5_src m ρ c))
theorem W7_dst : W7 m ρ c (Proc.devRef .tc main_v6) = dstRow (m ((c : Thread nD τ).loc main_arg1)) :=
  (W7_of_ne m ρ c main_v6 (by decide)).trans ((W6_of_ne m ρ c main_v6 (by decide)).trans (W5_dst m ρ c))
theorem W7_weight : W7 m ρ c (Proc.devRef .tc main_v29)
    = edgeWeight (F := Ideal) (srcRow (m ((c : Thread nD τ).loc main_arg1))) (dstRow (m ((c : Thread nD τ).loc main_arg1))) :=
  (W7_of_ne m ρ c main_v29 (by decide)).trans ((W6_of_ne m ρ c main_v29 (by decide)).trans (W5_weight m ρ c))
theorem W7_arg5 : W7 m ρ c (Proc.devRef .tc main_arg5) = m ((c : Thread nD τ).loc main_arg5) :=
  (W7_of_ne m ρ c main_arg5 (by decide)).trans ((W6_of_ne m ρ c main_arg5 (by decide)).trans (W5_arg5 m ρ c))

/-! ## The result -/

/-- The result buffer after the last region is the two-layer function of the six arguments. -/
theorem result_eq : W9 m ρ c (Proc.devRef .tc main_v61)
    = forward (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W9_arr m ρ c 2).trans ((RegionValue.region3_array (V8 m ρ) c).trans ?_)
  show bias64 (F := Ideal) (after hostOps3 (W7 m ρ c) (Proc.devRef .tc main_v59)) (after hostOps3 (W7 m ρ c) (Proc.devRef .tc main_v60)) = _
  rw [Stages.stage3_aggregate (W7 m ρ c), Stages.stage3_bias (W7 m ρ c), W7_product, W7_src, W7_dst, W7_weight, W7_arg5, row_eq_broadcast64]
  rfl

end Cert.KernelIdeal.Fold

end
-- ==== Proof.RefSide.lean ====
/-
  The reference program's result, as its run states it, is the shared two-layer function of its six arguments:
  the run's composed term is that function with every stage written out.
-/
import proofs.«412719_j30872224924177_1_alg».proof.Proof.RefRun
import proofs.«412719_j30872224924177_1_alg».proof.Proof.HostChain

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxHeartbeats 2000000 in
theorem result_eq (m : (ℓ : Loc nD τ sig) → Buf (Elt F) ℓ) (c : Dev nD) :
    Cert.ReferenceIdeal.RunP.res_main_v64 (F := F) m c
      = Cert.Gcn.forward (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.RunP.res_main_v64 Cert.Gcn.forward Cert.Gcn.bias64 Cert.Gcn.biasRelu128 Cert.Gcn.aggregate64 Cert.Gcn.aggregate128
    Cert.Gcn.edgeWeight Cert.Gcn.dis Cert.Gcn.degree Cert.Gcn.idxCol Cert.Gcn.wrapCol Cert.Gcn.srcRow Cert.Gcn.dstRow
  rfl

end Cert.ReferenceIdeal.RefValue

end
-- ==== Proof.lean ====
/-
  A two-layer graph convolution, out = Â·relu(Â·(x W1) + b1)·W2 + b2 with Â = D^{-1/2}(A + I)D^{-1/2}, computed by a
  program whose two matrix products and two bias passes are tiled kernels over row blocks of 5000 nodes (the
  products with their operands narrowed to bf16 on the way in), against the same computation written with whole-array
  host operations. Both programs build the extended edge list, the degrees and the edge weights with the same host
  operations and gather, scale and scatter-add with the same host operations; they differ only in the four dense
  stages. At the exact extended reals a change of float format is the identity, a tiled matrix product into a zero
  accumulator is the whole product row block by row block, and the bias passes are pointwise: so each kernel region
  leaves in its output array exactly the array the reference's host operation computes, and both results are one
  function `Cert.Gcn.forward` of the six arguments. No algebraic law beyond that is used, and the finiteness of the
  inputs is never needed.
-/
import proofs.«412719_j30872224924177_1_alg».proof.Defs
import proofs.«412719_j30872224924177_1_alg».proof.Proof.Gen.Kernel
import proofs.«412719_j30872224924177_1_alg».proof.Proof.Gen.Kernel.Frame
import proofs.«412719_j30872224924177_1_alg».proof.Proof.Gen.KernelIdeal
import proofs.«412719_j30872224924177_1_alg».proof.Proof.Gen.KernelIdeal.Frame
import proofs.«412719_j30872224924177_1_alg».proof.Proof.Gen.ReferenceIdeal
import proofs.«412719_j30872224924177_1_alg».proof.Proof.Gen.Pre_finite_inputs
import proofs.«412719_j30872224924177_1_alg».proof.Proof.KernelRun
import proofs.«412719_j30872224924177_1_alg».proof.Proof.KernelFold
import proofs.«412719_j30872224924177_1_alg».proof.Proof.RefRun
import proofs.«412719_j30872224924177_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read at the exact extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both programs end with the two-layer function of the (agreeing) arguments in their result buffers. -/
theorem algebraic : Cert.algebraic_KernelIdeal_ReferenceIdeal := by
  intro m ρ m' ρ' _ hagree
  refine ⟨fun c => Cert.Gcn.forward (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
